-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩

abbrev nBuf : Space → Nat
  | .hbm => 45
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S8192x1024.size a
  hwx0_15 : ∀ i : grid0.Coords, EltTy.bits .f32 = 32 ∨ (Rect.block (s := S8192x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S8192x1024.size a
  hwx0_16 : ∀ i : grid0.Coords, EltTy.bits .f32 = 32 ∨ (Rect.block (s := S8192x1024) S128x1024.size (cc0_transform_16 i) (hinb0_16 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24_0) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24_1) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S1024x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Spec.lean ====
/-
  One step of a long short-term memory cell, entry by entry, on the extended reals.

  A gate's pre-activation at row r, column j is the dot product of input row r with row j of the gate's input weights, plus
  the dot product of hidden row r with row j of its hidden weights, plus the gate's two biases at j. The forget, input and
  output gates pass it through the logistic function, the candidate through the hyperbolic tangent; the new cell state is
  forget · cell + input · candidate, the new hidden state output · tanh (new cell state).

  The same pre-activation is written here twice, because the two programs add its four terms in different groupings and read
  the weights through different layouts: once over the weights as given (row j of the matrix, the biases apart), the terms in
  the order product, bias, product, bias; and once over the weights TRANSPOSED (contraction coordinate first) and the two biases
  already summed into a one-row matrix. Addition of extended reals is commutative and associative — no finiteness is needed —
  so the two agree whenever the operands do.
-/
import Idealize.ShloMosaic.PureOps.Ideal
import Idealize.ShloMosaic.Lib.ValueIdx

noncomputable section

open scoped BigOperators
open Idealize.ShloMosaic Idealize.ShloMosaic.ValueIdx

namespace Cert.LstmCell

/-- A matrix of extended reals with R rows and C columns. -/
abbrev Mat (R C : Nat) : Type := (⟨2, ![R, C]⟩ : Shape).Idx → EReal
/-- A vector of extended reals of length C. -/
abbrev Vect (C : Nat) : Type := (⟨1, ![C]⟩ : Shape).Idx → EReal

variable {R : Nat}

/-- A gate's pre-activation at (r, j) over the weights as given: both products first, then the two biases. -/
def pre (x h : Mat R 1024) (wi wh : Mat 1024 1024) (bi bh : Vect 1024) (r : Fin R) (j : Fin 1024) : EReal :=
  (∑ k : Fin 1024, x (ix2 r k) * wi (ix2 j k)) + (∑ k : Fin 1024, h (ix2 r k) * wh (ix2 j k)) + (bi (ix1 j) + bh (ix1 j))

/-- The four terms added in the order input product, input bias, hidden product, hidden bias give the same pre-activation. -/
theorem interleaved_eq_pre (x h : Mat R 1024) (wi wh : Mat 1024 1024) (bi bh : Vect 1024) (r : Fin R) (j : Fin 1024) :
    (∑ k : Fin 1024, x (ix2 r k) * wi (ix2 j k)) + bi (ix1 j) + (∑ k : Fin 1024, h (ix2 r k) * wh (ix2 j k)) + bh (ix1 j)
      = pre x h wi wh bi bh r j :=
  (add_assoc _ _ _).trans (add_add_add_comm _ _ _ _)

/-- A gate's pre-activation at (p, q) over transposed weights (entry (k, q) multiplies column k of the data) and a one-row
    matrix b holding the summed bias. -/
def preT (x h : Mat R 1024) (wiT whT : Mat 1024 1024) (b : Mat 1 1024) (p : Fin R) (q : Fin 1024) : EReal :=
  (∑ k : Fin 1024, x (ix2 p k) * wiT (ix2 k q)) + (∑ k : Fin 1024, h (ix2 p k) * whT (ix2 k q)) + b (ix2 (0 : Fin 1) q)

/-- Over operands that are the transposes and the summed bias of the given ones, the two pre-activations agree. -/
theorem preT_eq_pre (x h : Mat R 1024) (wiT whT : Mat 1024 1024) (b : Mat 1 1024) (wi wh : Mat 1024 1024) (bi bh : Vect 1024)
    (hwi : ∀ k q, wiT (ix2 k q) = wi (ix2 q k)) (hwh : ∀ k q, whT (ix2 k q) = wh (ix2 q k))
    (hb : ∀ q, b (ix2 (0 : Fin 1) q) = bi (ix1 q) + bh (ix1 q)) (p : Fin R) (q : Fin 1024) :
    preT x h wiT whT b p q = pre x h wi wh bi bh p q := by
  unfold preT pre
  rw [hb]
  simp only [hwi, hwh]

/-- The pre-activation at a row depends only on that row of the data and of the hidden state: rows that agree give the same. -/
theorem preT_congr_rows {R' : Nat} (x h : Mat R 1024) (X H : Mat R' 1024) (wiT whT : Mat 1024 1024) (b : Mat 1 1024)
    (p : Fin R) (r : Fin R') (hx : ∀ k : Fin 1024, x (ix2 p k) = X (ix2 r k)) (hh : ∀ k : Fin 1024, h (ix2 p k) = H (ix2 r k))
    (q : Fin 1024) : preT x h wiT whT b p q = preT X H wiT whT b r q := by
  unfold preT
  simp only [hx, hh]

/-- The new cell state at (r, j) from the forget, input and candidate pre-activations and the old cell state. -/
def cell (f i g : Fin R → Fin 1024 → EReal) (c : Mat R 1024) (r : Fin R) (j : Fin 1024) : EReal :=
  Ideal.logistic (f r j) * c (ix2 r j) + Ideal.logistic (i r j) * Ideal.tanh (g r j)

/-- The new hidden state at (r, j) from the output pre-activation and the new cell state. -/
def hidden (o ct : Fin R → Fin 1024 → EReal) (r : Fin R) (j : Fin 1024) : EReal :=
  Ideal.logistic (o r j) * Ideal.tanh (ct r j)

/-- The same as an equality of functions of the position. -/
theorem preT_eq_pre_fun (x h : Mat R 1024) (wiT whT : Mat 1024 1024) (b : Mat 1 1024) (wi wh : Mat 1024 1024) (bi bh : Vect 1024)
    (hwi : ∀ k q, wiT (ix2 k q) = wi (ix2 q k)) (hwh : ∀ k q, whT (ix2 k q) = wh (ix2 q k))
    (hb : ∀ q, b (ix2 (0 : Fin 1) q) = bi (ix1 q) + bh (ix1 q)) :
    preT x h wiT whT b = pre x h wi wh bi bh :=
  funext fun p => funext fun q => preT_eq_pre x h wiT whT b wi wh bi bh hwi hwh hb p q

/-- The cell update at a position depends only on the three gates and the old cell state at that position. -/
theorem cell_congr {R' : Nat} (f i g : Fin R → Fin 1024 → EReal) (f' i' g' : Fin R' → Fin 1024 → EReal) (c : Mat R 1024)
    (C : Mat R' 1024) (p : Fin R) (r : Fin R') (q : Fin 1024) (hf : f p q = f' r q) (hi : i p q = i' r q) (hg : g p q = g' r q)
    (hc : c (ix2 p q) = C (ix2 r q)) : cell f i g c p q = cell f' i' g' C r q := by
  unfold cell
  rw [hf, hi, hg, hc]

/-- The hidden update at a position depends only on the output gate and the new cell state at that position. -/
theorem hidden_congr {R' : Nat} (o ct : Fin R → Fin 1024 → EReal) (o' ct' : Fin R' → Fin 1024 → EReal)
    (p : Fin R) (r : Fin R') (q : Fin 1024) (ho : o p q = o' r q) (hct : ct p q = ct' r q) :
    hidden o ct p q = hidden o' ct' r q := by
  unfold hidden
  rw [ho, hct]

/-- The pre-activations of the four gates as functions of the position, over the weights and biases as given. -/
abbrev Gates (R : Nat) : Type := Fin R → Fin 1024 → EReal

/-- THE NEW CELL STATE as a whole matrix, from the inputs and the forget, input and candidate gates' weights and biases. -/
def cellArr (x h c : Mat 8192 1024) (wfi wfh : Mat 1024 1024) (bfi bfh : Vect 1024) (wii wih : Mat 1024 1024) (bii bih : Vect 1024)
    (wgi wgh : Mat 1024 1024) (bgi bgh : Vect 1024) : Mat 8192 1024 := fun i =>
  cell (pre x h wfi wfh bfi bfh) (pre x h wii wih bii bih) (pre x h wgi wgh bgi bgh) c (i 0) (i 1)

/-- THE NEW HIDDEN STATE as a whole matrix: the output gate times the hyperbolic tangent of the new cell state. -/
def hiddenArr (x h c : Mat 8192 1024) (wfi wfh : Mat 1024 1024) (bfi bfh : Vect 1024) (wii wih : Mat 1024 1024) (bii bih : Vect 1024)
    (wgi wgh : Mat 1024 1024) (bgi bgh : Vect 1024) (woi woh : Mat 1024 1024) (boi boh : Vect 1024) : Mat 8192 1024 := fun i =>
  hidden (pre x h woi woh boi boh) (cell (pre x h wfi wfh bfi bfh) (pre x h wii wih bii bih) (pre x h wgi wgh bgi bgh) c) (i 0) (i 1)

end Cert.LstmCell

end
-- ==== Proof.Payload.lean ====
/-
  The kernel body's arithmetic at one entry of a 128-row block.

  The body loads a block of input rows, of hidden rows and of old cell rows, and for each gate two weight matrices already
  transposed (contraction coordinate first) and a one-row matrix holding the gate's summed bias. A change of float format and a
  shape cast to the same shape are the identity on extended reals, and a matrix product accumulated into zero is the plain sum
  over the contraction coordinate; so each gate's value is the logistic function (or the hyperbolic tangent) of the
  pre-activation over transposed weights, and the two stored values are the cell update and the hidden update of those.
-/
import proofs.«138513_j76398878261544_1_alg».proof.Proof.Gen.KernelIdeal.Skeleton
import proofs.«138513_j76398878261544_1_alg».proof.Proof.LibPlainMatmul
import proofs.«138513_j76398878261544_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx Idealize.ShloMosaic.TcCoe
open Cert.KernelIdeal Cert.KernelIdeal.Gen

namespace Cert.LstmCell.Body

/-- One product of the body at entry (p, q): rows of data (in either float format) against a transposed weight matrix,
    summed over the contraction coordinate. -/
theorem product_apply {φ : FTy} (v : FVec Ideal S128x1024 φ) (w : FVec Ideal S1024x1024 .bf16) (p : Fin 128) (q : Fin 1024) :
    matmul dot_S128x1024_S1024x1024_S128x1024_1_0_0_1_n_n none v
        (shapeCast S1024x1024 w shapeCasts_S1024x1024_S1024x1024) (constant (F := Ideal) S128x1024 .f32 0x00000000#32) (ix2 p q)
      = ∑ k : Fin 1024, v (ix2 p k) * w (ix2 k q) := by
  rw [shapeCast_self]
  exact Cert.Lib.PlainMatmul.apply dot_S128x1024_S1024x1024_S128x1024_1_0_0_1_n_n rfl rfl rfl rfl rfl rfl none v w p q

/-- The summed-bias row spread down the block, at entry (p, q). -/
theorem bias_apply (b : FVec Ideal S1x1024 .f32) (p : Fin 128) (q : Fin 1024) :
    broadcastTo S128x1024 (shapeCast S1x1024 b shapeCasts_S1x1024_S1x1024) broadcasts_S1x1024_S128x1024 (ix2 p q)
      = b (ix2 (0 : Fin 1) q) := by
  rw [shapeCast_self]
  exact Cert.Lib.PlainMatmul.rowSpread_apply b broadcasts_S1x1024_S128x1024 p q

/-- The candidate gate's input product, which the body computes ahead of the rest of that gate. -/
theorem pay7_apply (x : FVec Ideal S128x1024 .f32) (w : FVec Ideal S1024x1024 .bf16) (p : Fin 128) (q : Fin 1024) :
    k0_pay7 (F := Ideal) x w (ix2 p q) = ∑ k : Fin 1024, x (ix2 p k) * w (ix2 k q) :=
  product_apply (k0_pay3 (F := Ideal) x) w p q

/-- The forget gate at entry (p, q): the logistic function of its pre-activation. -/
theorem pay5_apply (x h : FVec Ideal S128x1024 .f32) (wi wh : FVec Ideal S1024x1024 .bf16) (b : FVec Ideal S1x1024 .f32)
    (p : Fin 128) (q : Fin 1024) :
    k0_pay5 (F := Ideal) x h wi wh b (ix2 p q) = Ideal.logistic (preT x h wi wh b p q) := by
  show Ideal.logistic ((matmul dot_S128x1024_S1024x1024_S128x1024_1_0_0_1_n_n none (k0_pay3 (F := Ideal) x)
        (shapeCast S1024x1024 wi shapeCasts_S1024x1024_S1024x1024) (constant (F := Ideal) S128x1024 .f32 0x00000000#32) (ix2 p q)
      + matmul dot_S128x1024_S1024x1024_S128x1024_1_0_0_1_n_n none (k0_pay4 (F := Ideal) h)
        (shapeCast S1024x1024 wh shapeCasts_S1024x1024_S1024x1024) (constant (F := Ideal) S128x1024 .f32 0x00000000#32) (ix2 p q))
      + broadcastTo S128x1024 (shapeCast S1x1024 b shapeCasts_S1x1024_S1x1024) broadcasts_S1x1024_S128x1024 (ix2 p q)) = _
  rw [product_apply, product_apply, bias_apply]
  rfl

/-- The input gate is the same expression of its own operands. -/
theorem pay6_apply (x h : FVec Ideal S128x1024 .f32) (wi wh : FVec Ideal S1024x1024 .bf16) (b : FVec Ideal S1x1024 .f32)
    (p : Fin 128) (q : Fin 1024) :
    k0_pay6 (F := Ideal) x h wi wh b (ix2 p q) = Ideal.logistic (preT x h wi wh b p q) :=
  pay5_apply x h wi wh b p q

/-- THE NEW CELL STATE the body stores, at entry (p, q) of the block: forget · old cell + input · candidate, each gate over
    its own transposed weights and summed bias. -/
theorem cellPayload_apply (x h c : FVec Ideal S128x1024 .f32) (wfi wfh : FVec Ideal S1024x1024 .bf16) (bf : FVec Ideal S1x1024 .f32)
    (wii wih : FVec Ideal S1024x1024 .bf16) (bi : FVec Ideal S1x1024 .f32)
    (wgi wgh : FVec Ideal S1024x1024 .bf16) (bg : FVec Ideal S1x1024 .f32) (p : Fin 128) (q : Fin 1024) :
    k0_pay1 (F := Ideal) (k0_pay4 h) c (k0_pay5 x h wfi wfh bf) (k0_pay6 x h wii wih bi) (k0_pay7 x wgi) wgh bg (ix2 p q)
      = cell (preT x h wfi wfh bf) (preT x h wii wih bi) (preT x h wgi wgh bg) c p q := by
  show k0_pay5 (F := Ideal) x h wfi wfh bf (ix2 p q) * c (ix2 p q)
      + k0_pay6 (F := Ideal) x h wii wih bi (ix2 p q) * Ideal.tanh ((k0_pay7 (F := Ideal) x wgi (ix2 p q)
        + matmul dot_S128x1024_S1024x1024_S128x1024_1_0_0_1_n_n none (k0_pay4 (F := Ideal) h)
          (shapeCast S1024x1024 wgh shapeCasts_S1024x1024_S1024x1024) (constant (F := Ideal) S128x1024 .f32 0x00000000#32) (ix2 p q))
        + broadcastTo S128x1024 (shapeCast S1x1024 bg shapeCasts_S1x1024_S1x1024) broadcasts_S1x1024_S128x1024 (ix2 p q)) = _
  rw [pay5_apply, pay6_apply, pay7_apply, product_apply, bias_apply]
  rfl

/-- THE NEW HIDDEN STATE the body stores, at entry (p, q) of the block: output gate · tanh of the new cell state. -/
theorem hiddenPayload_apply (x h c : FVec Ideal S128x1024 .f32) (wfi wfh : FVec Ideal S1024x1024 .bf16) (bf : FVec Ideal S1x1024 .f32)
    (wii wih : FVec Ideal S1024x1024 .bf16) (bi : FVec Ideal S1x1024 .f32)
    (wgi wgh : FVec Ideal S1024x1024 .bf16) (bg : FVec Ideal S1x1024 .f32)
    (woi woh : FVec Ideal S1024x1024 .bf16) (bo : FVec Ideal S1x1024 .f32) (p : Fin 128) (q : Fin 1024) :
    k0_pay2 (F := Ideal) (k0_pay3 x) (k0_pay4 h) c (k0_pay5 x h wfi wfh bf) (k0_pay6 x h wii wih bi) (k0_pay7 x wgi) wgh bg woi woh bo
        (ix2 p q)
      = hidden (preT x h woi woh bo) (cell (preT x h wfi wfh bf) (preT x h wii wih bi) (preT x h wgi wgh bg) c) p q := by
  show Ideal.logistic ((matmul dot_S128x1024_S1024x1024_S128x1024_1_0_0_1_n_n none (k0_pay3 (F := Ideal) x)
          (shapeCast S1024x1024 woi shapeCasts_S1024x1024_S1024x1024) (constant (F := Ideal) S128x1024 .f32 0x00000000#32) (ix2 p q)
        + matmul dot_S128x1024_S1024x1024_S128x1024_1_0_0_1_n_n none (k0_pay4 (F := Ideal) h)
          (shapeCast S1024x1024 woh shapeCasts_S1024x1024_S1024x1024) (constant (F := Ideal) S128x1024 .f32 0x00000000#32) (ix2 p q))
        + broadcastTo S128x1024 (shapeCast S1x1024 bo shapeCasts_S1x1024_S1x1024) broadcasts_S1x1024_S128x1024 (ix2 p q))
      * Ideal.tanh (k0_pay1 (F := Ideal) (k0_pay4 h) c (k0_pay5 x h wfi wfh bf) (k0_pay6 x h wii wih bi) (k0_pay7 x wgi) wgh bg
          (ix2 p q)) = _
  rw [product_apply, product_apply, bias_apply, cellPayload_apply]
  rfl

/-- The stored cell state at any entry `y` of the block, by its coordinates. -/
theorem cellPayload_idx (x h c : FVec Ideal S128x1024 .f32) (wfi wfh : FVec Ideal S1024x1024 .bf16) (bf : FVec Ideal S1x1024 .f32)
    (wii wih : FVec Ideal S1024x1024 .bf16) (bi : FVec Ideal S1x1024 .f32)
    (wgi wgh : FVec Ideal S1024x1024 .bf16) (bg : FVec Ideal S1x1024 .f32) (y : S128x1024.Idx) :
    k0_pay1 (F := Ideal) (k0_pay4 h) c (k0_pay5 x h wfi wfh bf) (k0_pay6 x h wii wih bi) (k0_pay7 x wgi) wgh bg y
      = cell (preT x h wfi wfh bf) (preT x h wii wih bi) (preT x h wgi wgh bg) c (y 0) (y 1) := by
  obtain ⟨p, q, rfl⟩ : ∃ (p : Fin 128) (q : Fin 1024), y = ix2 p q := ⟨y 0, y 1, eq_ix2 y⟩
  exact cellPayload_apply x h c wfi wfh bf wii wih bi wgi wgh bg p q

/-- The stored hidden state at any entry `y` of the block, by its coordinates. -/
theorem hiddenPayload_idx (x h c : FVec Ideal S128x1024 .f32) (wfi wfh : FVec Ideal S1024x1024 .bf16) (bf : FVec Ideal S1x1024 .f32)
    (wii wih : FVec Ideal S1024x1024 .bf16) (bi : FVec Ideal S1x1024 .f32)
    (wgi wgh : FVec Ideal S1024x1024 .bf16) (bg : FVec Ideal S1x1024 .f32)
    (woi woh : FVec Ideal S1024x1024 .bf16) (bo : FVec Ideal S1x1024 .f32) (y : S128x1024.Idx) :
    k0_pay2 (F := Ideal) (k0_pay3 x) (k0_pay4 h) c (k0_pay5 x h wfi wfh bf) (k0_pay6 x h wii wih bi) (k0_pay7 x wgi) wgh bg woi woh bo y
      = hidden (preT x h woi woh bo) (cell (preT x h wfi wfh bf) (preT x h wii wih bi) (preT x h wgi wgh bg) c) (y 0) (y 1) := by
  obtain ⟨p, q, rfl⟩ : ∃ (p : Fin 128) (q : Fin 1024), y = ix2 p q := ⟨y 0, y 1, eq_ix2 y⟩
  exact hiddenPayload_apply x h c wfi wfh bf wii wih bi wgi wgh bg woi woh bo p q

end Cert.LstmCell.Body

end
-- ==== Proof.Staged.lean ====
/-
  The arrays the kernel's region finds, for the operands that the host operations before it prepare.

  Before the region, each of the eight weight matrices is transposed and changed to the narrower float format — the identity on
  extended reals — so the array a weight window stages holds, at (k, q), the given weights at (q, k). Each gate's two biases are
  added and recast from a vector to a one-row matrix, so the array a bias window stages holds, at (0, q), the sum of the two
  biases at q. The inputs, the hidden state and the cell state reach the region as given.
-/
import proofs.«138513_j76398878261544_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

open Idealize.ShloMosaic Idealize.ShloMosaic.ValueIdx Idealize.ShloMosaic.TcCoe Idealize.SL.Sem Idealize.ShloMosaic.StableHlo
open Cert.KernelIdeal Cert.KernelIdeal.Gen

namespace Cert.LstmCell.Staged

variable (m : (ℓ : Loc nD τ sig) → Buf (Elt Ideal) ℓ)

/-! ## The argument arrays as given, at their literal types -/

abbrev xIn (c : Dev nD) : FVec Ideal S8192x1024 .f32 := m ((c : Thread nD τ).loc main_arg0)
abbrev hIn (c : Dev nD) : FVec Ideal S8192x1024 .f32 := m ((c : Thread nD τ).loc main_arg1)
abbrev cIn (c : Dev nD) : FVec Ideal S8192x1024 .f32 := m ((c : Thread nD τ).loc main_arg2)
abbrev wfi (c : Dev nD) : FVec Ideal S1024x1024 .f32 := m ((c : Thread nD τ).loc main_arg3)
abbrev bfi (c : Dev nD) : FVec Ideal S1024 .f32 := m ((c : Thread nD τ).loc main_arg4)
abbrev wfh (c : Dev nD) : FVec Ideal S1024x1024 .f32 := m ((c : Thread nD τ).loc main_arg5)
abbrev bfh (c : Dev nD) : FVec Ideal S1024 .f32 := m ((c : Thread nD τ).loc main_arg6)
abbrev wii (c : Dev nD) : FVec Ideal S1024x1024 .f32 := m ((c : Thread nD τ).loc main_arg7)
abbrev bii (c : Dev nD) : FVec Ideal S1024 .f32 := m ((c : Thread nD τ).loc main_arg8)
abbrev wih (c : Dev nD) : FVec Ideal S1024x1024 .f32 := m ((c : Thread nD τ).loc main_arg9)
abbrev bih (c : Dev nD) : FVec Ideal S1024 .f32 := m ((c : Thread nD τ).loc main_arg10)
abbrev wgi (c : Dev nD) : FVec Ideal S1024x1024 .f32 := m ((c : Thread nD τ).loc main_arg11)
abbrev bgi (c : Dev nD) : FVec Ideal S1024 .f32 := m ((c : Thread nD τ).loc main_arg12)
abbrev wgh (c : Dev nD) : FVec Ideal S1024x1024 .f32 := m ((c : Thread nD τ).loc main_arg13)
abbrev bgh (c : Dev nD) : FVec Ideal S1024 .f32 := m ((c : Thread nD τ).loc main_arg14)
abbrev woi (c : Dev nD) : FVec Ideal S1024x1024 .f32 := m ((c : Thread nD τ).loc main_arg15)
abbrev boi (c : Dev nD) : FVec Ideal S1024 .f32 := m ((c : Thread nD τ).loc main_arg16)
abbrev woh (c : Dev nD) : FVec Ideal S1024x1024 .f32 := m ((c : Thread nD τ).loc main_arg17)
abbrev boh (c : Dev nD) : FVec Ideal S1024 .f32 := m ((c : Thread nD τ).loc main_arg18)

/-! ## The arrays as the region finds them, at their literal types -/

abbrev xs (c : Dev nD) : FVec Ideal S8192x1024 .f32 := V m c main_arg0
abbrev hs (c : Dev nD) : FVec Ideal S8192x1024 .f32 := V m c main_arg1
abbrev cs (c : Dev nD) : FVec Ideal S8192x1024 .f32 := V m c main_arg2
abbrev wfiT (c : Dev nD) : FVec Ideal S1024x1024 .bf16 := V m c main_v1
abbrev wfhT (c : Dev nD) : FVec Ideal S1024x1024 .bf16 := V m c main_v3
abbrev bfRow (c : Dev nD) : FVec Ideal S1x1024 .f32 := V m c main_v17
abbrev wiiT (c : Dev nD) : FVec Ideal S1024x1024 .bf16 := V m c main_v5
abbrev wihT (c : Dev nD) : FVec Ideal S1024x1024 .bf16 := V m c main_v7
abbrev biRow (c : Dev nD) : FVec Ideal S1x1024 .f32 := V m c main_v19
abbrev wgiT (c : Dev nD) : FVec Ideal S1024x1024 .bf16 := V m c main_v9
abbrev wghT (c : Dev nD) : FVec Ideal S1024x1024 .bf16 := V m c main_v11
abbrev bgRow (c : Dev nD) : FVec Ideal S1x1024 .f32 := V m c main_v21
abbrev woiT (c : Dev nD) : FVec Ideal S1024x1024 .bf16 := V m c main_v13
abbrev wohT (c : Dev nD) : FVec Ideal S1024x1024 .bf16 := V m c main_v15
abbrev boRow (c : Dev nD) : FVec Ideal S1x1024 .f32 := V m c main_v23

/-! ## The data arrays reach the region as given -/

theorem xs_eq (c : Dev nD) : xs m c = xIn m c := V_main_arg0 m c
theorem hs_eq (c : Dev nD) : hs m c = hIn m c := V_main_arg1 m c
theorem cs_eq (c : Dev nD) : cs m c = cIn m c := V_main_arg2 m c

/-! ## The transposed weights -/

/-- Forget gate, input weights. -/
theorem wfiT_apply (c : Dev nD) (k q : Fin 1024) : wfiT m c (ix2 k q) = wfi m c (ix2 q k) := by
  have e : wfiT m c
      = truncf .bf16 (transpose S1024x1024 [1, 0] (wfi m c) transposes_S1024x1024_S1024x1024_1_0) bitsLt_bf16_f32 := by
    dsimp only [wfiT, wfi, V, hostOps0]; after_results
  rw [e]; exact transpose_ix2_apply _ _ k q

/-- Forget gate, hidden weights. -/
theorem wfhT_apply (c : Dev nD) (k q : Fin 1024) : wfhT m c (ix2 k q) = wfh m c (ix2 q k) := by
  have e : wfhT m c
      = truncf .bf16 (transpose S1024x1024 [1, 0] (wfh m c) transposes_S1024x1024_S1024x1024_1_0) bitsLt_bf16_f32 := by
    dsimp only [wfhT, wfh, V, hostOps0]; after_results
  rw [e]; exact transpose_ix2_apply _ _ k q

/-- Input gate, input weights. -/
theorem wiiT_apply (c : Dev nD) (k q : Fin 1024) : wiiT m c (ix2 k q) = wii m c (ix2 q k) := by
  have e : wiiT m c
      = truncf .bf16 (transpose S1024x1024 [1, 0] (wii m c) transposes_S1024x1024_S1024x1024_1_0) bitsLt_bf16_f32 := by
    dsimp only [wiiT, wii, V, hostOps0]; after_results
  rw [e]; exact transpose_ix2_apply _ _ k q

/-- Input gate, hidden weights. -/
theorem wihT_apply (c : Dev nD) (k q : Fin 1024) : wihT m c (ix2 k q) = wih m c (ix2 q k) := by
  have e : wihT m c
      = truncf .bf16 (transpose S1024x1024 [1, 0] (wih m c) transposes_S1024x1024_S1024x1024_1_0) bitsLt_bf16_f32 := by
    dsimp only [wihT, wih, V, hostOps0]; after_results
  rw [e]; exact transpose_ix2_apply _ _ k q

/-- Candidate, input weights. -/
theorem wgiT_apply (c : Dev nD) (k q : Fin 1024) : wgiT m c (ix2 k q) = wgi m c (ix2 q k) := by
  have e : wgiT m c
      = truncf .bf16 (transpose S1024x1024 [1, 0] (wgi m c) transposes_S1024x1024_S1024x1024_1_0) bitsLt_bf16_f32 := by
    dsimp only [wgiT, wgi, V, hostOps0]; after_results
  rw [e]; exact transpose_ix2_apply _ _ k q

/-- Candidate, hidden weights. -/
theorem wghT_apply (c : Dev nD) (k q : Fin 1024) : wghT m c (ix2 k q) = wgh m c (ix2 q k) := by
  have e : wghT m c
      = truncf .bf16 (transpose S1024x1024 [1, 0] (wgh m c) transposes_S1024x1024_S1024x1024_1_0) bitsLt_bf16_f32 := by
    dsimp only [wghT, wgh, V, hostOps0]; after_results
  rw [e]; exact transpose_ix2_apply _ _ k q

/-- Output gate, input weights. -/
theorem woiT_apply (c : Dev nD) (k q : Fin 1024) : woiT m c (ix2 k q) = woi m c (ix2 q k) := by
  have e : woiT m c
      = truncf .bf16 (transpose S1024x1024 [1, 0] (woi m c) transposes_S1024x1024_S1024x1024_1_0) bitsLt_bf16_f32 := by
    dsimp only [woiT, woi, V, hostOps0]; after_results
  rw [e]; exact transpose_ix2_apply _ _ k q

/-- Output gate, hidden weights. -/
theorem wohT_apply (c : Dev nD) (k q : Fin 1024) : wohT m c (ix2 k q) = woh m c (ix2 q k) := by
  have e : wohT m c
      = truncf .bf16 (transpose S1024x1024 [1, 0] (woh m c) transposes_S1024x1024_S1024x1024_1_0) bitsLt_bf16_f32 := by
    dsimp only [wohT, woh, V, hostOps0]; after_results
  rw [e]; exact transpose_ix2_apply _ _ k q

/-! ## The summed biases -/

/-- Forget gate. -/
theorem bfRow_apply (c : Dev nD) (q : Fin 1024) : bfRow m c (ix2 (0 : Fin 1) q) = bfi m c (ix1 q) + bfh m c (ix1 q) := by
  have e : bfRow m c = shapeCast S1x1024 (addf (bfi m c) (bfh m c)) shapeCasts_S1024_S1x1024 := by
    dsimp only [bfRow, bfi, bfh, V, hostOps0]; after_results; rfl
  rw [e]; exact shapeCast_a_1a_apply _ _ 0 q

/-- Input gate. -/
theorem biRow_apply (c : Dev nD) (q : Fin 1024) : biRow m c (ix2 (0 : Fin 1) q) = bii m c (ix1 q) + bih m c (ix1 q) := by
  have e : biRow m c = shapeCast S1x1024 (addf (bii m c) (bih m c)) shapeCasts_S1024_S1x1024 := by
    dsimp only [biRow, bii, bih, V, hostOps0]; after_results; rfl
  rw [e]; exact shapeCast_a_1a_apply _ _ 0 q

/-- Candidate. -/
theorem bgRow_apply (c : Dev nD) (q : Fin 1024) : bgRow m c (ix2 (0 : Fin 1) q) = bgi m c (ix1 q) + bgh m c (ix1 q) := by
  have e : bgRow m c = shapeCast S1x1024 (addf (bgi m c) (bgh m c)) shapeCasts_S1024_S1x1024 := by
    dsimp only [bgRow, bgi, bgh, V, hostOps0]; after_results; rfl
  rw [e]; exact shapeCast_a_1a_apply _ _ 0 q

/-- Output gate. -/
theorem boRow_apply (c : Dev nD) (q : Fin 1024) : boRow m c (ix2 (0 : Fin 1) q) = boi m c (ix1 q) + boh m c (ix1 q) := by
  have e : boRow m c = shapeCast S1x1024 (addf (boi m c) (boh m c)) shapeCasts_S1024_S1x1024 := by
    dsimp only [boRow, boi, boh, V, hostOps0]; after_results; rfl
  rw [e]; exact shapeCast_a_1a_apply _ _ 0 q

end Cert.LstmCell.Staged

end
-- ==== Proof.Blocks.lean ====
/-
  From blocks to whole arrays: what the kernel's two output arrays hold after the run.

  The grid has 64 points; point t works on rows 128·t … 128·t + 127 of the inputs, the hidden state and the cell state, and on
  the whole of every weight matrix and bias row, and writes rows 128·t … 128·t + 127 of each output. So what point t writes
  back is block t of one whole-array function of the arrays the region finds, and since the 64 blocks tile the 8192 rows, each
  output array ends holding that function.
-/
import proofs.«138513_j76398878261544_1_alg».proof.Proof.Gen.KernelIdeal.Value
import proofs.«138513_j76398878261544_1_alg».proof.Proof.Payload
import proofs.«138513_j76398878261544_1_alg».proof.Proof.Staged
import proofs.«138513_j76398878261544_1_alg».proof.Proof.Spec

set_option maxRecDepth 16384

noncomputable section

open scoped BigOperators
open Idealize.ShloMosaic Idealize.ShloMosaic.ValueIdx Idealize.ShloMosaic.TcCoe Idealize.SL.Sem
open Idealize.ShloMosaic.Pipeline (Dat)
open Cert.KernelIdeal Cert.KernelIdeal.Gen Cert.LstmCell.Body Cert.LstmCell.Staged

namespace Cert.LstmCell.Blocks

variable (m : (ℓ : Loc nD τ sig) → Buf (Elt Ideal) ℓ)

theorem origin : (![0, 0] : Fin 2 → Nat) = fun _ => 0 := funext fun a => by fin_cases a <;> rfl

/-- The new cell state over the staged operands: transposed weights and summed-bias rows as the region finds them. -/
def cellStaged (c : Dev nD) : FVec Ideal S8192x1024 .f32 := fun i =>
  cell (preT (xs m c) (hs m c) (wfiT m c) (wfhT m c) (bfRow m c)) (preT (xs m c) (hs m c) (wiiT m c) (wihT m c) (biRow m c))
    (preT (xs m c) (hs m c) (wgiT m c) (wghT m c) (bgRow m c)) (cs m c) (i 0) (i 1)

/-- The new hidden state over the staged operands. -/
def hiddenStaged (c : Dev nD) : FVec Ideal S8192x1024 .f32 := fun i =>
  hidden (preT (xs m c) (hs m c) (woiT m c) (wohT m c) (boRow m c))
    (cell (preT (xs m c) (hs m c) (wfiT m c) (wfhT m c) (bfRow m c)) (preT (xs m c) (hs m c) (wiiT m c) (wihT m c) (biRow m c))
      (preT (xs m c) (hs m c) (wgiT m c) (wghT m c) (bgRow m c)) (cs m c)) (i 0) (i 1)

/-! ## The printed index maps, decided over the grid -/

/-- The three row-blocked inputs and the two outputs sit at block (t, 0). -/
theorem row_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- Every weight and bias window sits at block (0, 0) at every point: its block is its whole array. -/
theorem whole_facts : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-! ## A point's blocks, read off the arrays -/

/-- Row `128·t + p` of the arrays, as an index of the 8192 rows. -/
abbrev rowOf (t : Fin cfg0.N) (p : Fin 128) : Fin 8192 := ⟨t.val * 128 + p.val, by
  have := t.isLt; have := p.isLt; have h : cfg0.N = 64 := N_0; omega⟩

/-- Point t's block of the inputs at (p, k) is the inputs at row 128·t + p. -/
theorem xBlock_apply (c : Dev nD) (t : Fin cfg0.N) (p : Fin 128) (k : Fin 1024) :
    (iblk m c 0 t : FVec Ideal S128x1024 .f32) (ix2 p k) = xs m c (ix2 (rowOf t p) k) := by
  obtain ⟨e00, e01, e10, e11, e20, e21, e150, e151, e160, e161⟩ := row_facts t
  show V m c main_arg0 (((cfg0.win 0).blk t).view.emb (ix2 p k)) = V m c main_arg0 (ix2 (rowOf t p) k)
  refine congrArg _ ?_
  funext a; apply Fin.ext
  match a with
  | ⟨0, _⟩ => show win0_0.index t (0 : Fin 2) * 128 + 1 * p.val = t.val * 128 + p.val; omega
  | ⟨1, _⟩ => show win0_0.index t (1 : Fin 2) * 1024 + 1 * k.val = k.val; omega

/-- Point t's block of the hidden state at (p, k) is the hidden state at row 128·t + p. -/
theorem hBlock_apply (c : Dev nD) (t : Fin cfg0.N) (p : Fin 128) (k : Fin 1024) :
    (iblk m c 1 t : FVec Ideal S128x1024 .f32) (ix2 p k) = hs m c (ix2 (rowOf t p) k) := by
  obtain ⟨e00, e01, e10, e11, e20, e21, e150, e151, e160, e161⟩ := row_facts t
  show V m c main_arg1 (((cfg0.win 1).blk t).view.emb (ix2 p k)) = V m c main_arg1 (ix2 (rowOf t p) k)
  refine congrArg _ ?_
  funext a; apply Fin.ext
  match a with
  | ⟨0, _⟩ => show win0_1.index t (0 : Fin 2) * 128 + 1 * p.val = t.val * 128 + p.val; omega
  | ⟨1, _⟩ => show win0_1.index t (1 : Fin 2) * 1024 + 1 * k.val = k.val; omega

/-- Point t's block of the cell state at (p, k) is the cell state at row 128·t + p. -/
theorem cBlock_apply (c : Dev nD) (t : Fin cfg0.N) (p : Fin 128) (k : Fin 1024) :
    (iblk m c 2 t : FVec Ideal S128x1024 .f32) (ix2 p k) = cs m c (ix2 (rowOf t p) k) := by
  obtain ⟨e00, e01, e10, e11, e20, e21, e150, e151, e160, e161⟩ := row_facts t
  show V m c main_arg2 (((cfg0.win 2).blk t).view.emb (ix2 p k)) = V m c main_arg2 (ix2 (rowOf t p) k)
  refine congrArg _ ?_
  funext a; apply Fin.ext
  match a with
  | ⟨0, _⟩ => show win0_2.index t (0 : Fin 2) * 128 + 1 * p.val = t.val * 128 + p.val; omega
  | ⟨1, _⟩ => show win0_2.index t (1 : Fin 2) * 1024 + 1 * k.val = k.val; omega

/-- The forget gate's input weights: the block is the whole array. -/
theorem wfiBlock_eq (c : Dev nD) (t : Fin cfg0.N) : (iblk m c 3 t : FVec Ideal S1024x1024 .bf16) = wfiT m c := by
  obtain ⟨e30, e31, e40, e41, e50, e51, e60, e61, e70, e71, e80, e81, e90, e91, e100, e101, e110, e111, e120, e121, e130, e131, e140, e141⟩ := whole_facts t
  funext z
  show V m c main_v1 (((cfg0.win 3).blk t).view.emb z) = V m c main_v1 z
  refine congrArg _ ?_
  funext a; apply Fin.ext
  match a with
  | ⟨0, _⟩ => show win0_3.index t (0 : Fin 2) * 1024 + 1 * (z 0).val = (z 0).val; omega
  | ⟨1, _⟩ => show win0_3.index t (1 : Fin 2) * 1024 + 1 * (z 1).val = (z 1).val; omega

/-- The forget gate's hidden weights. -/
theorem wfhBlock_eq (c : Dev nD) (t : Fin cfg0.N) : (iblk m c 4 t : FVec Ideal S1024x1024 .bf16) = wfhT m c := by
  obtain ⟨e30, e31, e40, e41, e50, e51, e60, e61, e70, e71, e80, e81, e90, e91, e100, e101, e110, e111, e120, e121, e130, e131, e140, e141⟩ := whole_facts t
  funext z
  show V m c main_v3 (((cfg0.win 4).blk t).view.emb z) = V m c main_v3 z
  refine congrArg _ ?_
  funext a; apply Fin.ext
  match a with
  | ⟨0, _⟩ => show win0_4.index t (0 : Fin 2) * 1024 + 1 * (z 0).val = (z 0).val; omega
  | ⟨1, _⟩ => show win0_4.index t (1 : Fin 2) * 1024 + 1 * (z 1).val = (z 1).val; omega

/-- The forget gate's summed-bias row. -/
theorem bfBlock_eq (c : Dev nD) (t : Fin cfg0.N) : (iblk m c 5 t : FVec Ideal S1x1024 .f32) = bfRow m c := by
  obtain ⟨e30, e31, e40, e41, e50, e51, e60, e61, e70, e71, e80, e81, e90, e91, e100, e101, e110, e111, e120, e121, e130, e131, e140, e141⟩ := whole_facts t
  funext z
  show V m c main_v17 (((cfg0.win 5).blk t).view.emb z) = V m c main_v17 z
  refine congrArg _ ?_
  funext a; apply Fin.ext
  match a with
  | ⟨0, _⟩ => show win0_5.index t (0 : Fin 2) * 1 + 1 * (z 0).val = (z 0).val; omega
  | ⟨1, _⟩ => show win0_5.index t (1 : Fin 2) * 1024 + 1 * (z 1).val = (z 1).val; omega

/-- The input gate's input weights. -/
theorem wiiBlock_eq (c : Dev nD) (t : Fin cfg0.N) : (iblk m c 6 t : FVec Ideal S1024x1024 .bf16) = wiiT m c := by
  obtain ⟨e30, e31, e40, e41, e50, e51, e60, e61, e70, e71, e80, e81, e90, e91, e100, e101, e110, e111, e120, e121, e130, e131, e140, e141⟩ := whole_facts t
  funext z
  show V m c main_v5 (((cfg0.win 6).blk t).view.emb z) = V m c main_v5 z
  refine congrArg _ ?_
  funext a; apply Fin.ext
  match a with
  | ⟨0, _⟩ => show win0_6.index t (0 : Fin 2) * 1024 + 1 * (z 0).val = (z 0).val; omega
  | ⟨1, _⟩ => show win0_6.index t (1 : Fin 2) * 1024 + 1 * (z 1).val = (z 1).val; omega

/-- The input gate's hidden weights. -/
theorem wihBlock_eq (c : Dev nD) (t : Fin cfg0.N) : (iblk m c 7 t : FVec Ideal S1024x1024 .bf16) = wihT m c := by
  obtain ⟨e30, e31, e40, e41, e50, e51, e60, e61, e70, e71, e80, e81, e90, e91, e100, e101, e110, e111, e120, e121, e130, e131, e140, e141⟩ := whole_facts t
  funext z
  show V m c main_v7 (((cfg0.win 7).blk t).view.emb z) = V m c main_v7 z
  refine congrArg _ ?_
  funext a; apply Fin.ext
  match a with
  | ⟨0, _⟩ => show win0_7.index t (0 : Fin 2) * 1024 + 1 * (z 0).val = (z 0).val; omega
  | ⟨1, _⟩ => show win0_7.index t (1 : Fin 2) * 1024 + 1 * (z 1).val = (z 1).val; omega

/-- The input gate's summed-bias row. -/
theorem biBlock_eq (c : Dev nD) (t : Fin cfg0.N) : (iblk m c 8 t : FVec Ideal S1x1024 .f32) = biRow m c := by
  obtain ⟨e30, e31, e40, e41, e50, e51, e60, e61, e70, e71, e80, e81, e90, e91, e100, e101, e110, e111, e120, e121, e130, e131, e140, e141⟩ := whole_facts t
  funext z
  show V m c main_v19 (((cfg0.win 8).blk t).view.emb z) = V m c main_v19 z
  refine congrArg _ ?_
  funext a; apply Fin.ext
  match a with
  | ⟨0, _⟩ => show win0_8.index t (0 : Fin 2) * 1 + 1 * (z 0).val = (z 0).val; omega
  | ⟨1, _⟩ => show win0_8.index t (1 : Fin 2) * 1024 + 1 * (z 1).val = (z 1).val; omega

/-- The candidate's input weights. -/
theorem wgiBlock_eq (c : Dev nD) (t : Fin cfg0.N) : (iblk m c 9 t : FVec Ideal S1024x1024 .bf16) = wgiT m c := by
  obtain ⟨e30, e31, e40, e41, e50, e51, e60, e61, e70, e71, e80, e81, e90, e91, e100, e101, e110, e111, e120, e121, e130, e131, e140, e141⟩ := whole_facts t
  funext z
  show V m c main_v9 (((cfg0.win 9).blk t).view.emb z) = V m c main_v9 z
  refine congrArg _ ?_
  funext a; apply Fin.ext
  match a with
  | ⟨0, _⟩ => show win0_9.index t (0 : Fin 2) * 1024 + 1 * (z 0).val = (z 0).val; omega
  | ⟨1, _⟩ => show win0_9.index t (1 : Fin 2) * 1024 + 1 * (z 1).val = (z 1).val; omega

/-- The candidate's hidden weights. -/
theorem wghBlock_eq (c : Dev nD) (t : Fin cfg0.N) : (iblk m c 10 t : FVec Ideal S1024x1024 .bf16) = wghT m c := by
  obtain ⟨e30, e31, e40, e41, e50, e51, e60, e61, e70, e71, e80, e81, e90, e91, e100, e101, e110, e111, e120, e121, e130, e131, e140, e141⟩ := whole_facts t
  funext z
  show V m c main_v11 (((cfg0.win 10).blk t).view.emb z) = V m c main_v11 z
  refine congrArg _ ?_
  funext a; apply Fin.ext
  match a with
  | ⟨0, _⟩ => show win0_10.index t (0 : Fin 2) * 1024 + 1 * (z 0).val = (z 0).val; omega
  | ⟨1, _⟩ => show win0_10.index t (1 : Fin 2) * 1024 + 1 * (z 1).val = (z 1).val; omega

/-- The candidate's summed-bias row. -/
theorem bgBlock_eq (c : Dev nD) (t : Fin cfg0.N) : (iblk m c 11 t : FVec Ideal S1x1024 .f32) = bgRow m c := by
  obtain ⟨e30, e31, e40, e41, e50, e51, e60, e61, e70, e71, e80, e81, e90, e91, e100, e101, e110, e111, e120, e121, e130, e131, e140, e141⟩ := whole_facts t
  funext z
  show V m c main_v21 (((cfg0.win 11).blk t).view.emb z) = V m c main_v21 z
  refine congrArg _ ?_
  funext a; apply Fin.ext
  match a with
  | ⟨0, _⟩ => show win0_11.index t (0 : Fin 2) * 1 + 1 * (z 0).val = (z 0).val; omega
  | ⟨1, _⟩ => show win0_11.index t (1 : Fin 2) * 1024 + 1 * (z 1).val = (z 1).val; omega

/-- The output gate's input weights. -/
theorem woiBlock_eq (c : Dev nD) (t : Fin cfg0.N) : (iblk m c 12 t : FVec Ideal S1024x1024 .bf16) = woiT m c := by
  obtain ⟨e30, e31, e40, e41, e50, e51, e60, e61, e70, e71, e80, e81, e90, e91, e100, e101, e110, e111, e120, e121, e130, e131, e140, e141⟩ := whole_facts t
  funext z
  show V m c main_v13 (((cfg0.win 12).blk t).view.emb z) = V m c main_v13 z
  refine congrArg _ ?_
  funext a; apply Fin.ext
  match a with
  | ⟨0, _⟩ => show win0_12.index t (0 : Fin 2) * 1024 + 1 * (z 0).val = (z 0).val; omega
  | ⟨1, _⟩ => show win0_12.index t (1 : Fin 2) * 1024 + 1 * (z 1).val = (z 1).val; omega

/-- The output gate's hidden weights. -/
theorem wohBlock_eq (c : Dev nD) (t : Fin cfg0.N) : (iblk m c 13 t : FVec Ideal S1024x1024 .bf16) = wohT m c := by
  obtain ⟨e30, e31, e40, e41, e50, e51, e60, e61, e70, e71, e80, e81, e90, e91, e100, e101, e110, e111, e120, e121, e130, e131, e140, e141⟩ := whole_facts t
  funext z
  show V m c main_v15 (((cfg0.win 13).blk t).view.emb z) = V m c main_v15 z
  refine congrArg _ ?_
  funext a; apply Fin.ext
  match a with
  | ⟨0, _⟩ => show win0_13.index t (0 : Fin 2) * 1024 + 1 * (z 0).val = (z 0).val; omega
  | ⟨1, _⟩ => show win0_13.index t (1 : Fin 2) * 1024 + 1 * (z 1).val = (z 1).val; omega

/-- The output gate's summed-bias row. -/
theorem boBlock_eq (c : Dev nD) (t : Fin cfg0.N) : (iblk m c 14 t : FVec Ideal S1x1024 .f32) = boRow m c := by
  obtain ⟨e30, e31, e40, e41, e50, e51, e60, e61, e70, e71, e80, e81, e90, e91, e100, e101, e110, e111, e120, e121, e130, e131, e140, e141⟩ := whole_facts t
  funext z
  show V m c main_v23 (((cfg0.win 14).blk t).view.emb z) = V m c main_v23 z
  refine congrArg _ ?_
  funext a; apply Fin.ext
  match a with
  | ⟨0, _⟩ => show win0_14.index t (0 : Fin 2) * 1 + 1 * (z 0).val = (z 0).val; omega
  | ⟨1, _⟩ => show win0_14.index t (1 : Fin 2) * 1024 + 1 * (z 1).val = (z 1).val; omega

/-! ## What a point writes back -/

/-- A gate's pre-activation over point t's blocks, at (p, q), is the gate's pre-activation over the arrays at row 128·t + p. -/
theorem preBlock_eq (c : Dev nD) (t : Fin cfg0.N) (wiT whT : FVec Ideal S1024x1024 .bf16) (b : FVec Ideal S1x1024 .f32)
    (p : Fin 128) (q : Fin 1024) :
    preT (iblk m c 0 t : FVec Ideal S128x1024 .f32) (iblk m c 1 t : FVec Ideal S128x1024 .f32) wiT whT b p q
      = preT (xs m c) (hs m c) wiT whT b (rowOf t p) q :=
  preT_congr_rows _ _ _ _ wiT whT b p (rowOf t p) (fun k => xBlock_apply m c t p k) (fun k => hBlock_apply m c t p k) q

/-- Entry y of the cell-state output's block at point t lies at row 128·t + y₀, column y₁ of the array. -/
theorem cellOut_emb (t : Fin cfg0.N) (y : S128x1024.Idx) :
    (((cfg0.win 16).blk t).view.emb y : S8192x1024.Idx) = ix2 (rowOf t (y 0)) (y 1) := by
  obtain ⟨e00, e01, e10, e11, e20, e21, e150, e151, e160, e161⟩ := row_facts t
  funext a; apply Fin.ext
  match a with
  | ⟨0, _⟩ => show win0_16.index t (0 : Fin 2) * 128 + 1 * (y 0).val = t.val * 128 + (y 0).val; omega
  | ⟨1, _⟩ => show win0_16.index t (1 : Fin 2) * 1024 + 1 * (y 1).val = (y 1).val; omega

/-- The same for the hidden-state output. -/
theorem hiddenOut_emb (t : Fin cfg0.N) (y : S128x1024.Idx) :
    (((cfg0.win 15).blk t).view.emb y : S8192x1024.Idx) = ix2 (rowOf t (y 0)) (y 1) := by
  obtain ⟨e00, e01, e10, e11, e20, e21, e150, e151, e160, e161⟩ := row_facts t
  funext a; apply Fin.ext
  match a with
  | ⟨0, _⟩ => show win0_15.index t (0 : Fin 2) * 128 + 1 * (y 0).val = t.val * 128 + (y 0).val; omega
  | ⟨1, _⟩ => show win0_15.index t (1 : Fin 2) * 1024 + 1 * (y 1).val = (y 1).val; omega

/-- The cell update over point t's blocks at (p, q) is the cell update over the arrays at row 128·t + p. -/
theorem cellBlock_eq (c : Dev nD) (t : Fin cfg0.N) (p : Fin 128) (q : Fin 1024) :
    cell (preT (iblk m c 0 t : FVec Ideal S128x1024 .f32) (iblk m c 1 t : FVec Ideal S128x1024 .f32) (wfiT m c) (wfhT m c) (bfRow m c))
        (preT (iblk m c 0 t : FVec Ideal S128x1024 .f32) (iblk m c 1 t : FVec Ideal S128x1024 .f32) (wiiT m c) (wihT m c) (biRow m c))
        (preT (iblk m c 0 t : FVec Ideal S128x1024 .f32) (iblk m c 1 t : FVec Ideal S128x1024 .f32) (wgiT m c) (wghT m c) (bgRow m c))
        (iblk m c 2 t : FVec Ideal S128x1024 .f32) p q
      = cell (preT (xs m c) (hs m c) (wfiT m c) (wfhT m c) (bfRow m c)) (preT (xs m c) (hs m c) (wiiT m c) (wihT m c) (biRow m c))
          (preT (xs m c) (hs m c) (wgiT m c) (wghT m c) (bgRow m c)) (cs m c) (rowOf t p) q :=
  cell_congr _ _ _ _ _ _ _ _ p (rowOf t p) q (preBlock_eq m c t _ _ _ p q) (preBlock_eq m c t _ _ _ p q) (preBlock_eq m c t _ _ _ p q)
    (cBlock_apply m c t p q)

/-- WHAT POINT t WRITES BACK to the cell-state output is block t of the cell update over the staged operands. -/
theorem cellFlushed_eq (c : Dev nD) (t : Fin cfg0.N) :
    (dats m 0 c).flushed 16 t = ((cfg0.win 16).blk t).view.read (Elt Ideal) (cellStaged m c) := by
  rw [Cert.KernelIdeal.Value.flushed16]
  unfold out0_16
  rw [View.canon_unit_zero origin]
  simp only [View.ld_unit_zero (S := S128x1024) origin, View.ld_unit_zero (S := S1024x1024) origin,
    View.ld_unit_zero (S := S1x1024) origin]
  funext y
  show k0_pay1 (F := Ideal) (k0_pay4 (iblk m c 1 t)) (iblk m c 2 t) (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (k0_pay7 (iblk m c 0 t) (iblk m c 9 t))
      (iblk m c 10 t) (iblk m c 11 t) y = cellStaged m c (((cfg0.win 16).blk t).view.emb y)
  rw [cellOut_emb t y]
  refine (cellPayload_idx (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) y).trans ?_
  rw [wfiBlock_eq, wfhBlock_eq, bfBlock_eq, wiiBlock_eq, wihBlock_eq, biBlock_eq, wgiBlock_eq, wghBlock_eq, bgBlock_eq]
  exact cellBlock_eq m c t (y 0) (y 1)

/-- WHAT POINT t WRITES BACK to the hidden-state output is block t of the hidden update over the staged operands. -/
theorem hiddenFlushed_eq (c : Dev nD) (t : Fin cfg0.N) :
    (dats m 0 c).flushed 15 t = ((cfg0.win 15).blk t).view.read (Elt Ideal) (hiddenStaged m c) := by
  rw [Cert.KernelIdeal.Value.flushed15]
  unfold out0_15
  rw [View.canon_unit_zero origin]
  simp only [View.ld_unit_zero (S := S128x1024) origin, View.ld_unit_zero (S := S1024x1024) origin,
    View.ld_unit_zero (S := S1x1024) origin]
  funext y
  show k0_pay2 (F := Ideal) (k0_pay3 (iblk m c 0 t)) (k0_pay4 (iblk m c 1 t)) (iblk m c 2 t)
      (k0_pay5 (iblk m c 0 t) (iblk m c 1 t) (iblk m c 3 t) (iblk m c 4 t) (iblk m c 5 t))
      (k0_pay6 (iblk m c 0 t) (iblk m c 1 t) (iblk m c 6 t) (iblk m c 7 t) (iblk m c 8 t)) (k0_pay7 (iblk m c 0 t) (iblk m c 9 t))
      (iblk m c 10 t) (iblk m c 11 t) (iblk m c 12 t) (iblk m c 13 t) (iblk m c 14 t) y
    = hiddenStaged m c (((cfg0.win 15).blk t).view.emb y)
  rw [hiddenOut_emb t y]
  refine (hiddenPayload_idx (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) y).trans ?_
  rw [wfiBlock_eq, wfhBlock_eq, bfBlock_eq, wiiBlock_eq, wihBlock_eq, biBlock_eq, wgiBlock_eq, wghBlock_eq, bgBlock_eq,
    woiBlock_eq, wohBlock_eq, boBlock_eq]
  exact hidden_congr _ _ _ _ (y 0) (rowOf t (y 0)) (y 1) (preBlock_eq m c t _ _ _ (y 0) (y 1)) (cellBlock_eq m c t (y 0) (y 1))

/-! ## The 64 blocks tile the rows -/

/-- An index of the array is in point t's block of the cell-state output iff each coordinate is in the block's range. -/
theorem mem_cellBlock (t : Fin cfg0.N) (i : S8192x1024.Idx) :
    i ∈ ((cfg0.win 16).blk t).view.set ↔ ∀ a : Fin 2, win0_16.index t a * S128x1024.size a ≤ (i a).val
      ∧ (i a).val < win0_16.index t a * S128x1024.size a + S128x1024.size a := by
  show i ∈ ((View.whole main_v24_1).slice (win0_16.rect t)).set ↔ _
  rw [View.set_slice_whole, Rect.mem_set_unit]
  exact Iff.rfl

/-- The same for the hidden-state output. -/
theorem mem_hiddenBlock (t : Fin cfg0.N) (i : S8192x1024.Idx) :
    i ∈ ((cfg0.win 15).blk t).view.set ↔ ∀ a : Fin 2, win0_15.index t a * S128x1024.size a ≤ (i a).val
      ∧ (i a).val < win0_15.index t a * S128x1024.size a + S128x1024.size a := by
  show i ∈ ((View.whole main_v24_0).slice (win0_15.rect t)).set ↔ _
  rw [View.set_slice_whole, Rect.mem_set_unit]
  exact Iff.rfl

/-- The point whose block holds row r: r / 128. -/
abbrev pointOf (i : S8192x1024.Idx) : Fin cfg0.N := ⟨(i 0).val / 128, by
  have hi0 : (i 0).val < 8192 := (i 0).isLt; have h : cfg0.N = 64 := N_0; omega⟩

/-- Every index of the cell-state output is in the block of the point its row belongs to. -/
theorem cell_cover (i : S8192x1024.Idx) :
    ∃ t : Fin cfg0.N, (cfg0.win 16).flush t = true ∧ i ∈ ((cfg0.win 16).blk t).view.set := by
  have hi0 : (i 0).val < 8192 := (i 0).isLt
  have hi1 : (i 1).val < 1024 := (i 1).isLt
  obtain ⟨e00, e01, e10, e11, e20, e21, e150, e151, e160, e161⟩ := row_facts (pointOf i)
  have ht : (pointOf i).val = (i 0).val / 128 := rfl
  refine ⟨pointOf i, flush0_16 _, ?_⟩
  rw [mem_cellBlock]
  intro a
  match a with
  | ⟨0, _⟩ =>
    show win0_16.index (pointOf i) (0 : Fin 2) * 128 ≤ (i 0).val ∧ (i 0).val < win0_16.index (pointOf i) (0 : Fin 2) * 128 + 128
    omega
  | ⟨1, _⟩ =>
    show win0_16.index (pointOf i) (1 : Fin 2) * 1024 ≤ (i 1).val ∧ (i 1).val < win0_16.index (pointOf i) (1 : Fin 2) * 1024 + 1024
    omega

/-- The same for the hidden-state output. -/
theorem hidden_cover (i : S8192x1024.Idx) :
    ∃ t : Fin cfg0.N, (cfg0.win 15).flush t = true ∧ i ∈ ((cfg0.win 15).blk t).view.set := by
  have hi0 : (i 0).val < 8192 := (i 0).isLt
  have hi1 : (i 1).val < 1024 := (i 1).isLt
  obtain ⟨e00, e01, e10, e11, e20, e21, e150, e151, e160, e161⟩ := row_facts (pointOf i)
  have ht : (pointOf i).val = (i 0).val / 128 := rfl
  refine ⟨pointOf i, flush0_15 _, ?_⟩
  rw [mem_hiddenBlock]
  intro a
  match a with
  | ⟨0, _⟩ =>
    show win0_15.index (pointOf i) (0 : Fin 2) * 128 ≤ (i 0).val ∧ (i 0).val < win0_15.index (pointOf i) (0 : Fin 2) * 128 + 128
    omega
  | ⟨1, _⟩ =>
    show win0_15.index (pointOf i) (1 : Fin 2) * 1024 ≤ (i 1).val ∧ (i 1).val < win0_15.index (pointOf i) (1 : Fin 2) * 1024 + 1024
    omega

/-! ## The two output arrays after the run -/

/-- The cell-state output ends holding the cell update over the staged operands. -/
theorem cellFinal (c : Dev nD) : (dats m 0 c).arrAt 16 cfg0.N = cellStaged m c :=
  (dats m 0 c).arrAt_eq_of_cover 16 (cellStaged m c) (fun t _ => cellFlushed_eq m c t) cell_cover

/-- The hidden-state output ends holding the hidden update over the staged operands. -/
theorem hiddenFinal (c : Dev nD) : (dats m 0 c).arrAt 15 cfg0.N = hiddenStaged m c :=
  (dats m 0 c).arrAt_eq_of_cover 15 (hiddenStaged m c) (fun t _ => hiddenFlushed_eq m c t) hidden_cover

/-! ## From the staged operands to the arrays as given -/

/-- Over the staged operands the cell update is the cell update over the given weights and biases. -/
theorem cellStaged_eq (c : Dev nD) :
    cellStaged m c = cellArr (xIn m c) (hIn m c) (cIn m c) (wfi m c) (wfh m c) (bfi m c) (bfh m c) (wii m c) (wih m c) (bii m c) (bih m c)
      (wgi m c) (wgh m c) (bgi m c) (bgh m c) := by
  funext i
  unfold cellStaged cellArr
  rw [xs_eq, hs_eq, cs_eq,
    preT_eq_pre_fun (xIn m c) (hIn m c) (wfiT m c) (wfhT m c) (bfRow m c) (wfi m c) (wfh m c) (bfi m c) (bfh m c)
      (wfiT_apply m c) (wfhT_apply m c) (bfRow_apply m c),
    preT_eq_pre_fun (xIn m c) (hIn m c) (wiiT m c) (wihT m c) (biRow m c) (wii m c) (wih m c) (bii m c) (bih m c)
      (wiiT_apply m c) (wihT_apply m c) (biRow_apply m c),
    preT_eq_pre_fun (xIn m c) (hIn m c) (wgiT m c) (wghT m c) (bgRow m c) (wgi m c) (wgh m c) (bgi m c) (bgh m c)
      (wgiT_apply m c) (wghT_apply m c) (bgRow_apply m c)]

/-- Over the staged operands the hidden update is the hidden update over the given weights and biases. -/
theorem hiddenStaged_eq (c : Dev nD) :
    hiddenStaged m c = hiddenArr (xIn m c) (hIn m c) (cIn m c) (wfi m c) (wfh m c) (bfi m c) (bfh m c) (wii m c) (wih m c) (bii m c)
      (bih m c) (wgi m c) (wgh m c) (bgi m c) (bgh m c) (woi m c) (woh m c) (boi m c) (boh m c) := by
  funext i
  unfold hiddenStaged hiddenArr
  rw [xs_eq, hs_eq, cs_eq,
    preT_eq_pre_fun (xIn m c) (hIn m c) (wfiT m c) (wfhT m c) (bfRow m c) (wfi m c) (wfh m c) (bfi m c) (bfh m c)
      (wfiT_apply m c) (wfhT_apply m c) (bfRow_apply m c),
    preT_eq_pre_fun (xIn m c) (hIn m c) (wiiT m c) (wihT m c) (biRow m c) (wii m c) (wih m c) (bii m c) (bih m c)
      (wiiT_apply m c) (wihT_apply m c) (biRow_apply m c),
    preT_eq_pre_fun (xIn m c) (hIn m c) (wgiT m c) (wghT m c) (bgRow m c) (wgi m c) (wgh m c) (bgi m c) (bgh m c)
      (wgiT_apply m c) (wghT_apply m c) (bgRow_apply m c),
    preT_eq_pre_fun (xIn m c) (hIn m c) (woiT m c) (wohT m c) (boRow m c) (woi m c) (woh m c) (boi m c) (boh m c)
      (woiT_apply m c) (wohT_apply m c) (boRow_apply m c)]

end Cert.LstmCell.Blocks

end
-- ==== Proof.RefCell.lean ====
/-
  The reference program's two results, entry by entry.

  For each gate the reference transposes the input weights, multiplies the inputs by them, adds the input bias spread over
  the rows, does the same with the hidden state, and adds the four terms in that order; the logistic function is spelled
  1 / (1 + exp (−z)) with the literal one. Read at entry (r, j): each product is the sum over k of data (r, k) · weights (j, k)
  (the transpose swaps the weight's coordinates back), each spread bias is its entry j, and the spelled logistic IS the logistic
  function of the extended reals, whose value at ±∞ that spelling already gives. The four gates are one expression of their own
  operands, so one lemma serves all four.
-/
import proofs.«138513_j76398878261544_1_alg».proof.Proof.Gen.ReferenceIdeal.Read
import proofs.«138513_j76398878261544_1_alg».proof.Proof.Spec
import Idealize.ShloMosaic.Lib.IdealHost

noncomputable section

open scoped BigOperators
open Idealize.ShloMosaic Idealize.ShloMosaic.ValueIdx Idealize.ShloMosaic.TcCoe
open Cert.ReferenceIdeal Cert.ReferenceIdeal.Read

namespace Cert.LstmCell.Ref

/-! ## The composed index maps of one gate, as coordinates -/

theorem inputRow_idx (r : Fin 8192) (j k : Fin 1024) : lidx_main_v1 (ix2 r j) k = ix2 r k :=
  funext fun a => Fin.ext (by match a with | ⟨0, _⟩ => rfl | ⟨1, _⟩ => rfl)

theorem inputWeight_idx (r : Fin 8192) (j k : Fin 1024) : idx_main_v0 (ridx_main_v1 (ix2 r j) k) = ix2 j k :=
  funext fun a => Fin.ext (by match a with | ⟨0, _⟩ => rfl | ⟨1, _⟩ => rfl)

theorem hiddenRow_idx (r : Fin 8192) (j k : Fin 1024) : lidx_main_v6 (ix2 r j) k = ix2 r k :=
  funext fun a => Fin.ext (by match a with | ⟨0, _⟩ => rfl | ⟨1, _⟩ => rfl)

theorem hiddenWeight_idx (r : Fin 8192) (j k : Fin 1024) : idx_main_v5 (ridx_main_v6 (ix2 r j) k) = ix2 j k :=
  funext fun a => Fin.ext (by match a with | ⟨0, _⟩ => rfl | ⟨1, _⟩ => rfl)

theorem inputBias_idx (r : Fin 8192) (j : Fin 1024) : idx_main_v2 (idx_main_v3 (ix2 r j)) = ix1 j :=
  funext fun a => Fin.ext (by match a with | ⟨0, _⟩ => rfl)

theorem hiddenBias_idx (r : Fin 8192) (j : Fin 1024) : idx_main_v8 (idx_main_v9 (ix2 r j)) = ix1 j :=
  funext fun a => Fin.ext (by match a with | ⟨0, _⟩ => rfl)

/-! ## One gate -/

/-- A gate's pre-activation in the reference, at (r, j). -/
theorem gate_apply (x h : FVec Ideal S8192x1024 .f32) (wi : FVec Ideal S1024x1024 .f32) (bi : FVec Ideal S1024 .f32)
    (wh : FVec Ideal S1024x1024 .f32) (bh : FVec Ideal S1024 .f32) (r : Fin 8192) (j : Fin 1024) :
    val_main_v10 (F := Ideal) x h wi bi wh bh (ix2 r j) = pre x h wi wh bi bh r j := by
  rw [← interleaved_eq_pre, val_main_v10_apply, val_main_v7_apply, val_main_v4_apply, val_main_v1_apply, val_main_v6_apply,
    val_main_v3_apply, val_main_v9_apply, val_main_v2_apply, val_main_v8_apply]
  simp only [val_main_v0_apply, val_main_v5_apply, inputRow_idx, inputWeight_idx, hiddenRow_idx, hiddenWeight_idx,
    inputBias_idx, hiddenBias_idx]
  rfl

/-- The reference's spelled logistic of a gate is the logistic function of its pre-activation. -/
theorem sigmoid_apply (x h : FVec Ideal S8192x1024 .f32) (wi : FVec Ideal S1024x1024 .f32) (bi : FVec Ideal S1024 .f32)
    (wh : FVec Ideal S1024x1024 .f32) (bh : FVec Ideal S1024 .f32) (i : S8192x1024.Idx) :
    val_main_v16 (F := Ideal) x h wi bi wh bh i = Ideal.logistic (val_main_v10 (F := Ideal) x h wi bi wh bh i) := by
  rw [val_main_v16_apply, val_main_v15_apply, val_main_cst_0_apply, val_main_v14_apply, val_main_v13_apply, val_main_cst_apply,
    val_main_v12_apply, val_main_v11_apply]
  show Ideal.div (Ideal.ofBits .f32 0x3F800000#32) (Ideal.ofBits .f32 0x3F800000#32 + Ideal.exp (-(val_main_v10 (F := Ideal) x h wi bi wh bh i))) = _
  rw [Ideal.ofBits_one_f32]
  rfl

/-- The input gate, the candidate and the output gate are the same expressions of their own operands. -/
theorem inputSigmoid_eq (x h : FVec Ideal S8192x1024 .f32) (wi : FVec Ideal S1024x1024 .f32) (bi : FVec Ideal S1024 .f32)
    (wh : FVec Ideal S1024x1024 .f32) (bh : FVec Ideal S1024 .f32) :
    val_main_v33 (F := Ideal) x h wi bi wh bh = val_main_v16 (F := Ideal) x h wi bi wh bh := rfl

theorem candidateGate_eq (x h : FVec Ideal S8192x1024 .f32) (wi : FVec Ideal S1024x1024 .f32) (bi : FVec Ideal S1024 .f32)
    (wh : FVec Ideal S1024x1024 .f32) (bh : FVec Ideal S1024 .f32) :
    val_main_v44 (F := Ideal) x h wi bi wh bh = val_main_v10 (F := Ideal) x h wi bi wh bh := rfl

theorem outputSigmoid_eq (x h : FVec Ideal S8192x1024 .f32) (wi : FVec Ideal S1024x1024 .f32) (bi : FVec Ideal S1024 .f32)
    (wh : FVec Ideal S1024x1024 .f32) (bh : FVec Ideal S1024 .f32) :
    val_main_v65 (F := Ideal) x h wi bi wh bh = val_main_v16 (F := Ideal) x h wi bi wh bh := rfl

/-! ## The two results -/

/-- The reference's new cell state at (r, j). -/
theorem cell_apply (x h c : FVec Ideal S8192x1024 .f32)
    (wfi : FVec Ideal S1024x1024 .f32) (bfi : FVec Ideal S1024 .f32) (wfh : FVec Ideal S1024x1024 .f32) (bfh : FVec Ideal S1024 .f32)
    (wii : FVec Ideal S1024x1024 .f32) (bii : FVec Ideal S1024 .f32) (wih : FVec Ideal S1024x1024 .f32) (bih : FVec Ideal S1024 .f32)
    (wgi : FVec Ideal S1024x1024 .f32) (bgi : FVec Ideal S1024 .f32) (wgh : FVec Ideal S1024x1024 .f32) (bgh : FVec Ideal S1024 .f32)
    (r : Fin 8192) (j : Fin 1024) :
    val_main_v48 (F := Ideal) x h c wfi bfi wfh bfh wii bii wih bih wgi bgi wgh bgh (ix2 r j)
      = cell (pre x h wfi wfh bfi bfh) (pre x h wii wih bii bih) (pre x h wgi wgh bgi bgh) c r j := by
  rw [val_main_v48_apply, val_main_v46_apply, val_main_v47_apply, val_main_v45_apply, inputSigmoid_eq, candidateGate_eq,
    sigmoid_apply, sigmoid_apply, gate_apply, gate_apply, gate_apply]
  rfl

/-- The reference's new hidden state at (r, j). -/
theorem hidden_apply (x h c : FVec Ideal S8192x1024 .f32)
    (wfi : FVec Ideal S1024x1024 .f32) (bfi : FVec Ideal S1024 .f32) (wfh : FVec Ideal S1024x1024 .f32) (bfh : FVec Ideal S1024 .f32)
    (wii : FVec Ideal S1024x1024 .f32) (bii : FVec Ideal S1024 .f32) (wih : FVec Ideal S1024x1024 .f32) (bih : FVec Ideal S1024 .f32)
    (wgi : FVec Ideal S1024x1024 .f32) (bgi : FVec Ideal S1024 .f32) (wgh : FVec Ideal S1024x1024 .f32) (bgh : FVec Ideal S1024 .f32)
    (woi : FVec Ideal S1024x1024 .f32) (boi : FVec Ideal S1024 .f32) (woh : FVec Ideal S1024x1024 .f32) (boh : FVec Ideal S1024 .f32)
    (r : Fin 8192) (j : Fin 1024) :
    val_main_v67 (F := Ideal) x h c wfi bfi wfh bfh wii bii wih bih wgi bgi wgh bgh woi boi woh boh (ix2 r j)
      = hidden (pre x h woi woh boi boh) (cell (pre x h wfi wfh bfi bfh) (pre x h wii wih bii bih) (pre x h wgi wgh bgi bgh) c) r j := by
  rw [val_main_v67_apply, val_main_v66_apply, outputSigmoid_eq, sigmoid_apply, gate_apply, cell_apply]
  rfl

/-- The reference's new cell state, the whole matrix. -/
theorem cell_eq (x h c : FVec Ideal S8192x1024 .f32)
    (wfi : FVec Ideal S1024x1024 .f32) (bfi : FVec Ideal S1024 .f32) (wfh : FVec Ideal S1024x1024 .f32) (bfh : FVec Ideal S1024 .f32)
    (wii : FVec Ideal S1024x1024 .f32) (bii : FVec Ideal S1024 .f32) (wih : FVec Ideal S1024x1024 .f32) (bih : FVec Ideal S1024 .f32)
    (wgi : FVec Ideal S1024x1024 .f32) (bgi : FVec Ideal S1024 .f32) (wgh : FVec Ideal S1024x1024 .f32) (bgh : FVec Ideal S1024 .f32) :
    val_main_v48 (F := Ideal) x h c wfi bfi wfh bfh wii bii wih bih wgi bgi wgh bgh
      = cellArr x h c wfi wfh bfi bfh wii wih bii bih wgi wgh bgi bgh := by
  funext i
  obtain ⟨r, j, rfl⟩ : ∃ (r : Fin 8192) (j : Fin 1024), i = ix2 r j := ⟨i 0, i 1, eq_ix2 i⟩
  exact cell_apply x h c wfi bfi wfh bfh wii bii wih bih wgi bgi wgh bgh r j

/-- The reference's new hidden state, the whole matrix. -/
theorem hidden_eq (x h c : FVec Ideal S8192x1024 .f32)
    (wfi : FVec Ideal S1024x1024 .f32) (bfi : FVec Ideal S1024 .f32) (wfh : FVec Ideal S1024x1024 .f32) (bfh : FVec Ideal S1024 .f32)
    (wii : FVec Ideal S1024x1024 .f32) (bii : FVec Ideal S1024 .f32) (wih : FVec Ideal S1024x1024 .f32) (bih : FVec Ideal S1024 .f32)
    (wgi : FVec Ideal S1024x1024 .f32) (bgi : FVec Ideal S1024 .f32) (wgh : FVec Ideal S1024x1024 .f32) (bgh : FVec Ideal S1024 .f32)
    (woi : FVec Ideal S1024x1024 .f32) (boi : FVec Ideal S1024 .f32) (woh : FVec Ideal S1024x1024 .f32) (boh : FVec Ideal S1024 .f32) :
    val_main_v67 (F := Ideal) x h c wfi bfi wfh bfh wii bii wih bih wgi bgi wgh bgh woi boi woh boh
      = hiddenArr x h c wfi wfh bfi bfh wii wih bii bih wgi wgh bgi bgh woi woh boi boh := by
  funext i
  obtain ⟨r, j, rfl⟩ : ∃ (r : Fin 8192) (j : Fin 1024), i = ix2 r j := ⟨i 0, i 1, eq_ix2 i⟩
  exact hidden_apply x h c wfi bfi wfh bfh wii bii wih bih wgi bgi wgh bgh woi boi woh boh r j

end Cert.LstmCell.Ref

end
-- ==== Proof.lean ====
/-
  One step of a long short-term memory cell: a fused kernel against the plain formulation.

  Both programs take a batch of 8192 input rows, hidden rows and cell rows of width 1024 and, for each of the forget, input,
  candidate and output gates, an input weight matrix, a hidden weight matrix and two biases. A gate's pre-activation at (r, j) is
  ⟨input row r, row j of the input weights⟩ + ⟨hidden row r, row j of the hidden weights⟩ + the two biases at j; the new cell
  state is σ(forget) · cell + σ(input) · tanh(candidate), and the new hidden state σ(output) · tanh(new cell state).

  The kernel works on 128 rows at a time, with the weights transposed and narrowed beforehand and each gate's two biases summed
  beforehand; the reference adds product, bias, product, bias in that order and spells the logistic function out. On the extended
  reals narrowing a float is the identity, a product into a zero accumulator is the plain sum, the spelled logistic is the logistic
  function, and addition is commutative and associative whatever the values — so no finiteness of the inputs is used — and
  the two programs compute one function of their arguments, entry by entry. The kernel's idealization rewrote nothing, and the
  three programs' runs leave their arguments as they were.
-/
import proofs.«138513_j76398878261544_1_alg».proof.Defs
import proofs.«138513_j76398878261544_1_alg».proof.Proof.Gen.Kernel
import proofs.«138513_j76398878261544_1_alg».proof.Proof.Gen.Kernel.Skeleton
import proofs.«138513_j76398878261544_1_alg».proof.Proof.Gen.Kernel.Launch
import proofs.«138513_j76398878261544_1_alg».proof.Proof.Gen.Kernel.Points
import proofs.«138513_j76398878261544_1_alg».proof.Proof.Gen.Kernel.Frame
import proofs.«138513_j76398878261544_1_alg».proof.Proof.Gen.KernelIdeal
import proofs.«138513_j76398878261544_1_alg».proof.Proof.Gen.KernelIdeal.Skeleton
import proofs.«138513_j76398878261544_1_alg».proof.Proof.Gen.KernelIdeal.Launch
import proofs.«138513_j76398878261544_1_alg».proof.Proof.Gen.KernelIdeal.Points
import proofs.«138513_j76398878261544_1_alg».proof.Proof.Gen.KernelIdeal.Frame
import proofs.«138513_j76398878261544_1_alg».proof.Proof.Gen.ReferenceIdeal
import proofs.«138513_j76398878261544_1_alg».proof.Proof.Gen.Pre_finite_inputs
import proofs.«138513_j76398878261544_1_alg».proof.Proof.Gen.KernelIdeal.Value
import proofs.«138513_j76398878261544_1_alg».proof.Proof.Gen.ReferenceIdeal.Run
import proofs.«138513_j76398878261544_1_alg».proof.Proof.Gen.ReferenceIdeal.Read
import proofs.«138513_j76398878261544_1_alg».proof.Proof.Blocks
import proofs.«138513_j76398878261544_1_alg».proof.Proof.RefCell
import Idealize.ShloMosaic.Adequacy
import Idealize.ShloMosaic.Init

noncomputable section

namespace Cert.Proof

open Idealize.ShloMosaic Idealize.ShloMosaic.TcCoe Idealize.SL.Sem
open Cert.LstmCell Cert.LstmCell.Staged Cert.LstmCell.Blocks

/-- The kernel as printed runs and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its run with the two results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both programs end with the new hidden state and the new cell state of the cell's one step, as functions of the arguments:
    the kernel's two output arrays by the 64 blocks that tile them, the reference's two results read entry by entry. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => hiddenArr (xIn m c) (hIn m c) (cIn m c) (wfi m c) (wfh m c) (bfi m c) (bfh m c) (wii m c) (wih m c) (bii m c) (bih m c)
      (wgi m c) (wgh m c) (bgi m c) (bgh m c) (woi m c) (woh m c) (boi m c) (boh m c),
    fun c => cellArr (xIn m c) (hIn m c) (cIn m c) (wfi m c) (wfh m c) (bfi m c) (bfh m c) (wii m c) (wih m c) (bii m c) (bih m c)
      (wgi m c) (wgh m c) (bgi m c) (bgh m c), ?_, ?_⟩
  · exact (θ_run Cert.KernelIdeal.defs _ _).mono (fun r h c =>
      ⟨(h c).1.trans ((hiddenFinal m c).trans (hiddenStaged_eq m c)), (h c).2.1.trans ((cellFinal m c).trans (cellStaged_eq m c)),
        (h c).2.2⟩) (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18⟩ := hagree c
      refine (Cert.ReferenceIdeal.Read.val_main_v67_eq ..).trans ?_
      rw [Cert.LstmCell.Ref.hidden_eq, a0, a1, a2, a3, a4, a5, a6, a7, a8, a9, a10, a11, a12, a13, a14, a15, a16, a17, a18]
    · obtain ⟨a0, a1, a2, a3, a4, a5, a6, a7, a8, a9, a10, a11, a12, a13, a14, a15, a16, a17, a18⟩ := hagree c
      refine (Cert.ReferenceIdeal.Read.val_main_v48_eq ..).trans ?_
      rw [Cert.LstmCell.Ref.cell_eq, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
